-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1200000 : Shape := ⟨2, ![2, 1200000]⟩
abbrev S50000 : Shape := ⟨1, ![50000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000 : S_.BroadcastsInDim S50000 (![] : Fin 0 → Fin S50000.rank)
  reducesTo_S50000_S_d0 : S50000.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S32x32 .f32) (main_arg6 : FVec F S32 .f32) (main_arg7 : FVec F S32x1 .f32) (main_arg8 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1 .f32 := Host.absf main_arg7
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x1200000 32) (main_arg2 : FVec F S50000 .f32) (main_arg3 : FVec F S128x32 .f32) (main_arg4 : FVec F S32 .f32) (main_arg5 : FVec F S32x32 .f32) (main_arg6 : FVec F S32 .f32) (main_arg7 : FVec F S32x1 .f32) (main_arg8 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000 .f32 := Host.absf main_arg2
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S128x32 .f32 := Host.absf main_arg3
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_v13 main_v16
-- ==== Kernel.lean ====
abbrev S50000x64 : Shape := ⟨2, ![50000, 64]⟩
abbrev S2x1200000 : Shape := ⟨2, ![2, 1200000]⟩
abbrev S50000 : Shape := ⟨1, ![50000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1200000x128 : Shape := ⟨2, ![1200000, 128]⟩
abbrev S1x32 : Shape := ⟨2, ![1, 32]⟩
abbrev S1x1 : Shape := ⟨2, ![1, 1]⟩
abbrev S6000x128 : Shape := ⟨2, ![6000, 128]⟩
abbrev S6000x1 : Shape := ⟨2, ![6000, 1]⟩
abbrev S6000x32 : Shape := ⟨2, ![6000, 32]⟩

abbrev nBuf : Space → Nat
  | .hbm => 51
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x1200000, .i32⟩
  | .hbm, ⟨2, _⟩ => ⟨S50000, .f32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S_, .i32⟩
  | .hbm, ⟨14, _⟩ => ⟨S1200000, .i32⟩
  | .hbm, ⟨15, _⟩ => ⟨S1200000, .i1⟩
  | .hbm, ⟨16, _⟩ => ⟨S_, .i32⟩
  | .hbm, ⟨17, _⟩ => ⟨S1200000, .i32⟩
  | .hbm, ⟨18, _⟩ => ⟨S1200000, .i32⟩
  | .hbm, ⟨19, _⟩ => ⟨S1200000, .i32⟩
  | .hbm, ⟨20, _⟩ => ⟨S1200000x1, .i32⟩
  | .hbm, ⟨21, _⟩ => ⟨S1200000x64, .f32⟩
  | .hbm, ⟨22, _⟩ => ⟨S_, .i32⟩
  | .hbm, ⟨23, _⟩ => ⟨S1200000, .i32⟩
  | .hbm, ⟨24, _⟩ => ⟨S1200000, .i1⟩
  | .hbm, ⟨25, _⟩ => ⟨S_, .i32⟩
  | .hbm, ⟨26, _⟩ => ⟨S1200000, .i32⟩
  | .hbm, ⟨27, _⟩ => ⟨S1200000, .i32⟩
  | .hbm, ⟨28, _⟩ => ⟨S1200000, .i32⟩
  | .hbm, ⟨29, _⟩ => ⟨S1200000x1, .i32⟩
  | .hbm, ⟨30, _⟩ => ⟨S1200000x64, .f32⟩
  | .hbm, ⟨31, _⟩ => ⟨S1200000x128, .f32⟩
  | .hbm, ⟨32, _⟩ => ⟨S1x32, .f32⟩
  | .hbm, ⟨33, _⟩ => ⟨S1x32, .f32⟩
  | .hbm, ⟨34, _⟩ => ⟨S1x1, .f32⟩
  | .hbm, ⟨35, _⟩ => ⟨S1200000x1, .f32⟩
  | .hbm, ⟨36, _⟩ => ⟨S1200000, .f32⟩
  | .hbm, ⟨37, _⟩ => ⟨S_, .i32⟩
  | .hbm, ⟨38, _⟩ => ⟨S1200000, .i32⟩
  | .hbm, ⟨39, _⟩ => ⟨S1200000, .i1⟩
  | .hbm, ⟨40, _⟩ => ⟨S_, .i32⟩
  | .hbm, ⟨41, _⟩ => ⟨S1200000, .i32⟩
  | .hbm, ⟨42, _⟩ => ⟨S1200000, .i32⟩
  | .hbm, ⟨43, _⟩ => ⟨S1200000, .i32⟩
  | .hbm, ⟨44, _⟩ => ⟨S1200000x1, .i32⟩
  | .hbm, ⟨45, _⟩ => ⟨S1200000, .f32⟩
  | .hbm, ⟨46, _⟩ => ⟨S1200000, .f32⟩
  | .hbm, ⟨47, _⟩ => ⟨S_, .f32⟩
  | .hbm, ⟨48, _⟩ => ⟨S50000, .f32⟩
  | .hbm, ⟨49, _⟩ => ⟨S1200000x1, .i32⟩
  | .hbm, ⟨50, _⟩ => ⟨S50000, .f32⟩
  | .local _ .vmem, ⟨0, _⟩ => ⟨S6000x128, .f32⟩
  | .local _ .vmem, ⟨1, _⟩ => ⟨S6000x128, .f32⟩
  | .local _ .vmem, ⟨2, _⟩ => ⟨S128x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S32x1, .f32⟩
  | .local _ .vmem, ⟨7, _⟩ => ⟨S1x1, .f32⟩
  | .local _ .vmem, ⟨8, _⟩ => ⟨S6000x1, .f32⟩
  | .local _ .vmem, ⟨9, _⟩ => ⟨S6000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  concatenates_S1200000x64_S1200000x64_S1200000x128_d1 : Shape.Concatenates [S1200000x64, S1200000x64] S1200000x128 1
  shapeCasts_S32_S1x32 : S32.ShapeCasts S1x32
  shapeCasts_S1_S1x1 : S1.ShapeCasts S1x1
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S6000x32 : S1x32.Broadcasts S6000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6000x1 : S1x1.Broadcasts S6000x1
  inb_S6000x1_S6000x1_0_0 : ∀ a, (![0, 0] : Fin 2 → Nat) a + S6000x1.size a ≤ S6000x1.size a
  h_S6000x1 : 0 < S6000x1.numel
  shapeCasts_S1200000x1_S1200000 : S1200000x1.ShapeCasts S1200000
  bcast_S_S50000 : S_.BroadcastsInDim S50000 (![] : Fin 0 → Fin S50000.rank)
  gather_S50000x64_S1200000x1_S1200000x64_1_0_n_n_0_1_164_wf : GatherDims.WF S50000x64 S1200000x1 S1200000x64 [1] [0] [] [0] [] 1 ![1, 64]
  dot_S6000x128_S128x32_S6000x32_1_0_0_1_n_n_wf : DotDims.WF S6000x128 S128x32 S6000x32 [1] [0] [0] [1] [] []
  dot_S6000x32_S32x32_S6000x32_1_0_0_1_n_n_wf : DotDims.WF S6000x32 S32x32 S6000x32 [1] [0] [0] [1] [] []
  dot_S6000x32_S32x1_S6000x1_1_0_0_1_n_n_wf : DotDims.WF S6000x32 S32x1 S6000x1 [1] [0] [0] [1] [] []
  gather_S50000_S1200000x1_S1200000_n_0_n_n_0_1_1_wf : GatherDims.WF S50000 S1200000x1 S1200000 [] [0] [] [0] [] 1 ![1]
  scatter_S50000_S1200000x1_S1200000_n_0_0_1_wf : ScatterDims.WF S50000 S1200000x1 S1200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S1200000x128.size a
  hwx0_0 : ∀ i : grid0.Coords, EltTy.bits .f32 = 32 ∨ (Rect.block (s := S1200000x128) S6000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S32x1.size a
  hwx0_5 : ∀ i : grid0.Coords, EltTy.bits .f32 = 32 ∨ (Rect.block (s := S32x1) S32x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6000x1.size a ≤ S1200000x1.size a
  hwx0_7 : ∀ i : grid0.Coords, EltTy.bits .f32 = 32 ∨ (Rect.block (s := S1200000x1) S6000x1.size (cc0_transform_7 i) (hinb0_7 i)).WholeWords (EltTy.packing .f32)

variable [Facts₀]

def gather_S50000x64_S1200000x1_S1200000x64_1_0_n_n_0_1_164 : GatherDims S50000x64 S1200000x1 S1200000x64 where
  offsetDims := [1]
  collapsedSliceDims := [0]
  operandBatchingDims := []
  startIndicesBatchingDims := []
  startIndexMap := [0]
  indexVectorDim := 1
  sliceSizes := ![1, 64]
  wf := gather_S50000x64_S1200000x1_S1200000x64_1_0_n_n_0_1_164_wf
def dot_S6000x128_S128x32_S6000x32_1_0_0_1_n_n : DotDims S6000x128 S128x32 S6000x32 where
  lhsContracting := [1]
  rhsContracting := [0]
  lhsNonContracting := [0]
  rhsNonContracting := [1]
  lhsBatch := []
  rhsBatch := []
  wf := dot_S6000x128_S128x32_S6000x32_1_0_0_1_n_n_wf
def dot_S6000x32_S32x32_S6000x32_1_0_0_1_n_n : DotDims S6000x32 S32x32 S6000x32 where
  lhsContracting := [1]
  rhsContracting := [0]
  lhsNonContracting := [0]
  rhsNonContracting := [1]
  lhsBatch := []
  rhsBatch := []
  wf := dot_S6000x32_S32x32_S6000x32_1_0_0_1_n_n_wf
def dot_S6000x32_S32x1_S6000x1_1_0_0_1_n_n : DotDims S6000x32 S32x1 S6000x1 where
  lhsContracting := [1]
  rhsContracting := [0]
  lhsNonContracting := [0]
  rhsNonContracting := [1]
  lhsBatch := []
  rhsBatch := []
  wf := dot_S6000x32_S32x1_S6000x1_1_0_0_1_n_n_wf
def gather_S50000_S1200000x1_S1200000_n_0_n_n_0_1_1 : GatherDims S50000 S1200000x1 S1200000 where
  offsetDims := []
  collapsedSliceDims := [0]
  operandBatchingDims := []
  startIndicesBatchingDims := []
  startIndexMap := [0]
  indexVectorDim := 1
  sliceSizes := ![1]
  wf := gather_S50000_S1200000x1_S1200000_n_0_n_n_0_1_1_wf
def scatter_S50000_S1200000x1_S1200000_n_0_0_1 : ScatterDims S50000 S1200000x1 S1200000 where
  updateWindowDims := []
  insertedWindowDims := [0]
  scatterDimsToOperandDims := [0]
  indexVectorDim := 1
  wf := scatter_S50000_S1200000x1_S1200000_n_0_0_1_wf

abbrev win0_0 : Pipeline.Window sig grid0 :=
  Pipeline.Window.ofSpec (Memref.whole main_v18) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S6000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x1200000 : Shape := ⟨2, ![2, 1200000]⟩
abbrev S50000 : Shape := ⟨1, ![50000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1200000x128 : Shape := ⟨2, ![1200000, 128]⟩
abbrev S1200000x32 : Shape := ⟨2, ![1200000, 32]⟩
abbrev S1x32 : Shape := ⟨2, ![1, 32]⟩
abbrev S1x1 : Shape := ⟨2, ![1, 1]⟩

abbrev nBuf : Space → Nat
  | .hbm => 65
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1200000, .i32⟩
  | .hbm, ⟨2, _⟩ => ⟨S50000, .f32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S_, .i32⟩
  | .hbm, ⟨14, _⟩ => ⟨S1200000, .i32⟩
  | .hbm, ⟨15, _⟩ => ⟨S1200000, .i1⟩
  | .hbm, ⟨16, _⟩ => ⟨S_, .i32⟩
  | .hbm, ⟨17, _⟩ => ⟨S1200000, .i32⟩
  | .hbm, ⟨18, _⟩ => ⟨S1200000, .i32⟩
  | .hbm, ⟨19, _⟩ => ⟨S1200000, .i32⟩
  | .hbm, ⟨20, _⟩ => ⟨S1200000x1, .i32⟩
  | .hbm, ⟨21, _⟩ => ⟨S1200000x64, .f32⟩
  | .hbm, ⟨22, _⟩ => ⟨S_, .i32⟩
  | .hbm, ⟨23, _⟩ => ⟨S1200000, .i32⟩
  | .hbm, ⟨24, _⟩ => ⟨S1200000, .i1⟩
  | .hbm, ⟨25, _⟩ => ⟨S_, .i32⟩
  | .hbm, ⟨26, _⟩ => ⟨S1200000, .i32⟩
  | .hbm, ⟨27, _⟩ => ⟨S1200000, .i32⟩
  | .hbm, ⟨28, _⟩ => ⟨S1200000, .i32⟩
  | .hbm, ⟨29, _⟩ => ⟨S1200000x1, .i32⟩
  | .hbm, ⟨30, _⟩ => ⟨S1200000x64, .f32⟩
  | .hbm, ⟨31, _⟩ => ⟨S1200000x128, .f32⟩
  | .hbm, ⟨32, _⟩ => ⟨S1200000x32, .f32⟩
  | .hbm, ⟨33, _⟩ => ⟨S1x32, .f32⟩
  | .hbm, ⟨34, _⟩ => ⟨S1200000x32, .f32⟩
  | .hbm, ⟨35, _⟩ => ⟨S1200000x32, .f32⟩
  | .hbm, ⟨36, _⟩ => ⟨S_, .f32⟩
  | .hbm, ⟨37, _⟩ => ⟨S1200000x32, .f32⟩
  | .hbm, ⟨38, _⟩ => ⟨S1200000x32, .f32⟩
  | .hbm, ⟨39, _⟩ => ⟨S1200000x32, .f32⟩
  | .hbm, ⟨40, _⟩ => ⟨S1x32, .f32⟩
  | .hbm, ⟨41, _⟩ => ⟨S1200000x32, .f32⟩
  | .hbm, ⟨42, _⟩ => ⟨S1200000x32, .f32⟩
  | .hbm, ⟨43, _⟩ => ⟨S_, .f32⟩
  | .hbm, ⟨44, _⟩ => ⟨S1200000x32, .f32⟩
  | .hbm, ⟨45, _⟩ => ⟨S1200000x32, .f32⟩
  | .hbm, ⟨46, _⟩ => ⟨S1200000x1, .f32⟩
  | .hbm, ⟨47, _⟩ => ⟨S1x1, .f32⟩
  | .hbm, ⟨48, _⟩ => ⟨S1200000x1, .f32⟩
  | .hbm, ⟨49, _⟩ => ⟨S1200000x1, .f32⟩
  | .hbm, ⟨50, _⟩ => ⟨S1200000, .f32⟩
  | .hbm, ⟨51, _⟩ => ⟨S_, .i32⟩
  | .hbm, ⟨52, _⟩ => ⟨S1200000, .i32⟩
  | .hbm, ⟨53, _⟩ => ⟨S1200000, .i1⟩
  | .hbm, ⟨54, _⟩ => ⟨S_, .i32⟩
  | .hbm, ⟨55, _⟩ => ⟨S1200000, .i32⟩
  | .hbm, ⟨56, _⟩ => ⟨S1200000, .i32⟩
  | .hbm, ⟨57, _⟩ => ⟨S1200000, .i32⟩
  | .hbm, ⟨58, _⟩ => ⟨S1200000x1, .i32⟩
  | .hbm, ⟨59, _⟩ => ⟨S1200000, .f32⟩
  | .hbm, ⟨60, _⟩ => ⟨S1200000, .f32⟩
  | .hbm, ⟨61, _⟩ => ⟨S_, .f32⟩
  | .hbm, ⟨62, _⟩ => ⟨S50000, .f32⟩
  | .hbm, ⟨63, _⟩ => ⟨S1200000x1, .i32⟩
  | .hbm, ⟨64, _⟩ => ⟨S50000, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_3 : Ref sig .tc := ⟨.hbm, 51, rfl⟩
abbrev main_v34 : Ref sig .tc := ⟨.hbm, 52, rfl⟩
abbrev main_v35 : Ref sig .tc := ⟨.hbm, 53, rfl⟩
abbrev main_c_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  concatenates_S1200000x64_S1200000x64_S1200000x128_d1 : Shape.Concatenates [S1200000x64, S1200000x64] S1200000x128 1
  bcast_S32_S1x32_1 : S32.BroadcastsInDim S1x32 (![1] : Fin 1 → Fin S1x32.rank)
  bcast_S1x32_S1200000x32_0_1 : S1x32.BroadcastsInDim S1200000x32 (![0, 1] : Fin 2 → Fin S1200000x32.rank)
  bcast_S_S1200000x32 : S_.BroadcastsInDim S1200000x32 (![] : Fin 0 → Fin S1200000x32.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  shapeCasts_S1200000x1_S1200000 : S1200000x1.ShapeCasts S1200000
  bcast_S_S50000 : S_.BroadcastsInDim S50000 (![] : Fin 0 → Fin S50000.rank)
  gather_S50000x64_S1200000x1_S1200000x64_1_0_n_n_0_1_164_wf : GatherDims.WF S50000x64 S1200000x1 S1200000x64 [1] [0] [] [0] [] 1 ![1, 64]
  dot_S1200000x128_S128x32_S1200000x32_1_0_0_1_n_n_wf : DotDims.WF S1200000x128 S128x32 S1200000x32 [1] [0] [0] [1] [] []
  dot_S1200000x32_S32x32_S1200000x32_1_0_0_1_n_n_wf : DotDims.WF S1200000x32 S32x32 S1200000x32 [1] [0] [0] [1] [] []
  dot_S1200000x32_S32x1_S1200000x1_1_0_0_1_n_n_wf : DotDims.WF S1200000x32 S32x1 S1200000x1 [1] [0] [0] [1] [] []
  gather_S50000_S1200000x1_S1200000_n_0_n_n_0_1_1_wf : GatherDims.WF S50000 S1200000x1 S1200000 [] [0] [] [0] [] 1 ![1]
  scatter_S50000_S1200000x1_S1200000_n_0_0_1_wf : ScatterDims.WF S50000 S1200000x1 S1200000 [] [0] [0] 1

variable [Facts₀]

def gather_S50000x64_S1200000x1_S1200000x64_1_0_n_n_0_1_164 : GatherDims S50000x64 S1200000x1 S1200000x64 where
  offsetDims := [1]
  collapsedSliceDims := [0]
  operandBatchingDims := []
  startIndicesBatchingDims := []
  startIndexMap := [0]
  indexVectorDim := 1
  sliceSizes := ![1, 64]
  wf := gather_S50000x64_S1200000x1_S1200000x64_1_0_n_n_0_1_164_wf
def dot_S1200000x128_S128x32_S1200000x32_1_0_0_1_n_n : DotDims S1200000x128 S128x32 S1200000x32 where
  lhsContracting := [1]
  rhsContracting := [0]
  lhsNonContracting := [0]
  rhsNonContracting := [1]
  lhsBatch := []
  rhsBatch := []
  wf := dot_S1200000x128_S128x32_S1200000x32_1_0_0_1_n_n_wf
def dot_S1200000x32_S32x32_S1200000x32_1_0_0_1_n_n : DotDims S1200000x32 S32x32 S1200000x32 where
  lhsContracting := [1]
  rhsContracting := [0]
  lhsNonContracting := [0]
  rhsNonContracting := [1]
  lhsBatch := []
  rhsBatch := []
  wf := dot_S1200000x32_S32x32_S1200000x32_1_0_0_1_n_n_wf
def dot_S1200000x32_S32x1_S1200000x1_1_0_0_1_n_n : DotDims S1200000x32 S32x1 S1200000x1 where
  lhsContracting := [1]
  rhsContracting := [0]
  lhsNonContracting := [0]
  rhsNonContracting := [1]
  lhsBatch := []
  rhsBatch := []
  wf := dot_S1200000x32_S32x1_S1200000x1_1_0_0_1_n_n_wf
def gather_S50000_S1200000x1_S1200000_n_0_n_n_0_1_1 : GatherDims S50000 S1200000x1 S1200000 where
  offsetDims := []
  collapsedSliceDims := [0]
  operandBatchingDims := []
  startIndicesBatchingDims := []
  startIndexMap := [0]
  indexVectorDim := 1
  sliceSizes := ![1]
  wf := gather_S50000_S1200000x1_S1200000_n_0_n_n_0_1_1_wf
def scatter_S50000_S1200000x1_S1200000_n_0_0_1 : ScatterDims S50000 S1200000x1 S1200000 where
  updateWindowDims := []
  insertedWindowDims := [0]
  scatterDimsToOperandDims := [0]
  indexVectorDim := 1
  wf := scatter_S50000_S1200000x1_S1200000_n_0_0_1_wf

class Facts : Prop extends Facts₀ where

variable [Facts]
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.EdgeMlp.lean ====
import Idealize.ShloMosaic.PureOps.Ideal.Laws
import Idealize.ShloMosaic.Lib.ValueIdx
import Idealize.ShloMosaic.Lib.Pipeline.Value
import proofs.«152135_j51591147160149_1_alg».proof.Proof.LibPlainDot

/-!
  The per-edge network, as a function on extended reals.

  An edge carries a feature row `xe` of length 128 (the two endpoint rows side by side). Three dense layers follow:
  `h₁ = relu (xe · W₁ + b₁)` (32 wide), `h₂ = relu (h₁ · W₂ + b₂)` (32 wide), `w = h₂ · W₃ + b₃` (one number).
  A dense layer's column `j` is the sum over `k` of `a k · W (k, j)`, plus `b j`; the rectifier is the larger of its
  argument and zero. Both programs compute exactly this for every edge: the kernel block by block with a matrix unit
  product into a zero accumulator and a bias row broadcast down the block, the reference on the whole edge list with a
  general dot product and a bias vector broadcast down the list. On the extended reals a change of float format is the
  identity and either product is the plain sum over the contracted axis, so no law beyond unfolding joins them.
-/

open scoped BigOperators

noncomputable section

namespace Cert.EdgeMlp

open Idealize.ShloMosaic Idealize.ShloMosaic.ValueIdx

/-- Column `j` of a dense layer: the row `a` against column `j` of the weights, plus the bias. -/
def dense {K N : Nat} (a : Fin K → EReal) (W : (⟨2, ![K, N]⟩ : Shape).Idx → EReal) (b : Fin N → EReal) (j : Fin N) : EReal :=
  (∑ k : Fin K, a k * W (ix2 k j)) + b j

/-- The rectifier: the larger of `x` and zero, the zero being the value of the all-zero float word. -/
def relu (x : EReal) : EReal := max x (Ideal.ofBits .f32 0x00000000#32)

/-- The weight the network gives one edge from its feature row. -/
def edgeWeight (xe : Fin 128 → EReal) (W1 : (⟨2, ![128, 32]⟩ : Shape).Idx → EReal) (b1 : Fin 32 → EReal)
    (W2 : (⟨2, ![32, 32]⟩ : Shape).Idx → EReal) (b2 : Fin 32 → EReal)
    (W3 : (⟨2, ![32, 1]⟩ : Shape).Idx → EReal) (b3 : Fin 1 → EReal) : EReal :=
  dense (fun j => relu (dense (fun i => relu (dense xe W1 b1 i)) W2 b2 j)) W3 b3 0

/-- The network applied to every row of an edge-feature array, the biases given as rows `[1, n]`. -/
def ewArray (xe : (⟨2, ![1200000, 128]⟩ : Shape).Idx → EReal) (W1 : (⟨2, ![128, 32]⟩ : Shape).Idx → EReal)
    (b1 : (⟨2, ![1, 32]⟩ : Shape).Idx → EReal) (W2 : (⟨2, ![32, 32]⟩ : Shape).Idx → EReal)
    (b2 : (⟨2, ![1, 32]⟩ : Shape).Idx → EReal) (W3 : (⟨2, ![32, 1]⟩ : Shape).Idx → EReal)
    (b3 : (⟨2, ![1, 1]⟩ : Shape).Idx → EReal) : (⟨2, ![1200000, 1]⟩ : Shape).Idx → EReal :=
  fun i => edgeWeight (fun k => xe (ix2 (i 0) k)) W1 (fun j => b1 (ix2 0 j)) W2 (fun j => b2 (ix2 0 j)) W3
    (fun j => b3 (ix2 0 j))

/-- A bias row `[1, N]` broadcast down `M` rows, read at `(p, q)`, is its entry `(0, q)`. -/
theorem biasRow_apply {M N : Nat} (b : (⟨2, ![1, N]⟩ : Shape).Idx → EReal)
    (hb : (⟨2, ![1, N]⟩ : Shape).Broadcasts ⟨2, ![M, N]⟩) (p : Fin M) (q : Fin N) :
    broadcastTo ⟨2, ![M, N]⟩ b hb (ix2 p q) = b (ix2 0 q) :=
  broadcastTo_apply b hb (ix2 p q) (ix2 0 q) (fun a => match a with
    | ⟨0, _⟩ => by show (0 : Nat) = if (1 : Nat) = 1 then 0 else _; rw [if_pos rfl]
    | ⟨1, _⟩ => by
        show q.val = if N = 1 then 0 else q.val
        split
        · next h => subst h; omega
        · rfl)

/-- A layer as a block computes it: the matrix unit's product into a zero accumulator, plus the bias row broadcast down
    the block, at `(p, q)` is column `q` of the dense layer on row `p`. -/
theorem dense_of_matmul {M K N : Nat} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    {φ₁ φ₂ : FTy} (l : FVec Ideal ⟨2, ![M, K]⟩ φ₁) (r : FVec Ideal ⟨2, ![K, N]⟩ φ₂)
    (b : FVec Ideal ⟨2, ![1, N]⟩ .f32) (hb : (⟨2, ![1, N]⟩ : Shape).Broadcasts ⟨2, ![M, N]⟩) (p : Fin M) (q : Fin N) :
    addf (matmul d none l r (constant (F := Ideal) ⟨2, ![M, N]⟩ .f32 0x00000000#32)) (broadcastTo ⟨2, ![M, N]⟩ b hb) (ix2 p q)
      = dense (fun k => l (ix2 p k)) r (fun j => b (ix2 0 j)) q := by
  rw [addf_apply]
  unfold dense
  congr 1
  · exact Cert.Lib.PlainDot.matmul_zero_apply d hlc hrc hln hrn hlb hrb none l r p q
  · exact biasRow_apply b hb p q

/-- A bias vector `[N]` made a row `[1, N]` and broadcast down `M` rows, read at `(p, q)`, is its entry `q`. -/
theorem biasVec_apply {M N : Nat} (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 0 q) (fun a => match a with
    | ⟨0, _⟩ => by show (0 : Nat) = if (1 : Nat) = 1 then 0 else _; rw [if_pos rfl]
    | ⟨1, _⟩ => by
        show q.val = if N = 1 then 0 else q.val
        split
        · next h => subst h; omega
        · rfl)]
  exact broadcastInDim_apply ![1] h1 b (ix2 0 q) (ix1 q) (fun a => match a with
    | ⟨0, _⟩ => by
        show q.val = if N = 1 then 0 else q.val
        split
        · next h => subst h; omega
        · rfl)

/-- A layer as the host computes it: the general dot product plus the bias vector broadcast down the list, at `(p, q)`
    is column `q` of the dense layer on row `p`. -/
theorem dense_of_dotGeneral {M K N : Nat} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    {φ₁ φ₂ : FTy} (l : FVec Ideal ⟨2, ![M, K]⟩ φ₁) (r : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral d none l r) (broadcastInDim ⟨2, ![M, N]⟩ ![0, 1] h2 (broadcastInDim ⟨2, ![1, N]⟩ ![1] h1 b)) (ix2 p q)
      = dense (fun k => l (ix2 p k)) r (fun j => b (ix1 j)) q := by
  rw [addf_apply]
  unfold dense
  congr 1
  · simp only [Host.dotGeneral]
    exact Cert.Lib.PlainDot.dotGeneral_apply d hlc hrc hln hrn hlb hrb none _ l r p q
  · exact biasVec_apply b h1 h2 p q

end Cert.EdgeMlp

end
-- ==== Proof.KernelBlock.lean ====
import proofs.«152135_j51591147160149_1_alg».proof.Proof.Gen.KernelIdeal.Skeleton
import proofs.«152135_j51591147160149_1_alg».proof.Proof.EdgeMlp

/-!
  What the kernel body stores for one block of edges, entry by entry.

  The body loads a block of 6000 feature rows, the three weight matrices and the three bias rows, and stores one column
  of 6000 numbers. Entry `p` of that column is the network's weight for row `p` of the block: each of the three
  layers is a matrix unit product into a zero accumulator plus the bias row broadcast down the block, the two inner ones
  followed by the rectifier, and the narrowing of a product's operands to a shorter float format is the identity on
  the extended reals.
-/

noncomputable section

namespace Cert.KernelIdeal.Block

open Cert.KernelIdeal Cert.KernelIdeal.Gen Idealize.ShloMosaic Idealize.ShloMosaic.ValueIdx Cert.EdgeMlp

/-- The rectifier as the body spells it: the maximum against a splat of the zero word, then the narrowing of the
    result for the next product. -/
theorem relu_narrow_apply {s : Shape} (v : FVec Ideal s .f32) (h : FTy.bits .bf16 < FTy.bits .f32) (i : s.Idx) :
    truncf .bf16 (maximumf v (broadcast s (Scalar.ofBits (F := Ideal) .f32 0x00000000#32))) h i = relu (v i) := rfl

/-- Entry `(p, q)` of the stored column is the network's weight for row `p` of the loaded block. -/
theorem stored_apply (x0 : Vec Ideal S6000x128 .f32) (x1 : Vec Ideal S128x32 .f32) (x2 : Vec Ideal S1x32 .f32)
    (x3 : Vec Ideal S32x32 .f32) (x4 : Vec Ideal S1x32 .f32) (x5 : Vec Ideal S32x1 .f32) (x6 : Vec Ideal S1x1 .f32)
    (p : Fin 6000) (q : Fin 1) :
    k0_pay1 (F := Ideal) x0 x1 x2 x3 x4 x5 x6 (ix2 p q)
      = edgeWeight (fun k => x0 (ix2 p k)) x1 (fun j => x2 (ix2 0 j)) x3 (fun j => x4 (ix2 0 j)) x5
          (fun j => x6 (ix2 0 j)) := by
  obtain rfl : q = 0 := Subsingleton.elim _ _
  unfold k0_pay1 edgeWeight
  simp only [shapeCast_self]
  -- the third layer, on the rectified second
  refine (dense_of_matmul dot_S6000x32_S32x1_S6000x1_1_0_0_1_n_n rfl rfl rfl rfl rfl rfl _ _ _ _ p 0).trans ?_
  refine congrArg (fun a => dense a x5 (fun j => x6 (ix2 0 j)) 0) (funext fun j => ?_)
  refine (relu_narrow_apply _ _ _).trans (congrArg relu ?_)
  -- the second layer, on the rectified first
  refine (dense_of_matmul dot_S6000x32_S32x32_S6000x32_1_0_0_1_n_n rfl rfl rfl rfl rfl rfl _ _ _ _ p j).trans ?_
  refine congrArg (fun a => dense a x3 (fun j => x4 (ix2 0 j)) j) (funext fun i => ?_)
  refine (relu_narrow_apply _ _ _).trans (congrArg relu ?_)
  -- the first layer, on the block's row
  exact dense_of_matmul dot_S6000x128_S128x32_S6000x32_1_0_0_1_n_n rfl rfl rfl rfl rfl rfl _ _ _ _ p i

end Cert.KernelIdeal.Block

end
-- ==== Proof.EdgeColumn.lean ====
import proofs.«152135_j51591147160149_1_alg».proof.Proof.Gen.KernelIdeal.Frame
import proofs.«152135_j51591147160149_1_alg».proof.Proof.KernelBlock
import Idealize.ShloMosaic.Lib.Pipeline.Value

/-!
  From the blocks the grid points write back to the whole column of edge weights.

  Grid point `t` of the 200 stages rows `6000 t … 6000 t + 5999` of the edge-feature array and writes back the same
  rows of the one-column result; the weights and the bias rows are staged whole at every point. So what point `t`
  writes back is rows `6000 t …` of ONE function of the arrays the region finds: the network applied to every feature
  row. The 200 row ranges tile the 1,200,000 rows (row `r` lies in the range of point `r / 6000`), hence the result
  array ends holding that function.
-/

noncomputable section

namespace Cert.KernelIdeal.EdgeColumn

open Cert.KernelIdeal Cert.KernelIdeal.Gen Idealize.ShloMosaic Idealize.ShloMosaic.TcCoe Idealize.SL.Sem
open Idealize.ShloMosaic.ValueIdx Cert.EdgeMlp
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- Which block each window takes at point `t`: block row `t` of the feature array and of the result, the one block
    of every weight and bias array. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- One stored entry against the whole-array function: if the loaded feature block's row `y 0` is row `i 0` of the
    feature array, the stored column at `y` is the network's column at `i`. -/
theorem stored_eq_column (x0 : Vec Ideal S6000x128 .f32) (x1 : Vec Ideal S128x32 .f32) (x2 : Vec Ideal S1x32 .f32)
    (x3 : Vec Ideal S32x32 .f32) (x4 : Vec Ideal S1x32 .f32) (x5 : Vec Ideal S32x1 .f32) (x6 : Vec Ideal S1x1 .f32)
    (A0 : S1200000x128.Idx → EReal) (A1 : S128x32.Idx → EReal) (A2 : S1x32.Idx → EReal) (A3 : S32x32.Idx → EReal)
    (A4 : S1x32.Idx → EReal) (A5 : S32x1.Idx → EReal) (A6 : S1x1.Idx → EReal)
    (y : S6000x1.Idx) (i : S1200000x1.Idx)
    (h0 : ∀ k : Fin 128, x0 (ix2 (y 0) k) = A0 (ix2 (i 0) k))
    (h1 : x1 = A1) (h2 : x2 = A2) (h3 : x3 = A3) (h4 : x4 = A4) (h5 : x5 = A5) (h6 : x6 = A6) :
    k0_pay1 (F := Ideal) x0 x1 x2 x3 x4 x5 x6 y = ewArray A0 A1 A2 A3 A4 A5 A6 i := by
  subst h1 h2 h3 h4 h5 h6
  obtain ⟨p, q, rfl⟩ : ∃ (p : Fin 6000) (q : Fin 1), y = ix2 p q := ⟨y 0, y 1, eq_ix2 y⟩
  rw [Block.stored_apply]
  unfold ewArray
  exact congrArg (fun a => edgeWeight a x1 (fun j => x2 (ix2 0 j)) x3 (fun j => x4 (ix2 0 j)) x5 (fun j => x6 (ix2 0 j)))
    (funext h0)

/-- The arrays the region finds, by name. -/
abbrev feat (c : Dev nD) : S1200000x128.Idx → EReal := V m c main_v18
abbrev w1 (c : Dev nD) : S128x32.Idx → EReal := V m c main_arg3
abbrev b1 (c : Dev nD) : S1x32.Idx → EReal := V m c main_v19
abbrev w2 (c : Dev nD) : S32x32.Idx → EReal := V m c main_arg5
abbrev b2 (c : Dev nD) : S1x32.Idx → EReal := V m c main_v20
abbrev w3 (c : Dev nD) : S32x1.Idx → EReal := V m c main_arg7
abbrev b3 (c : Dev nD) : S1x1.Idx → EReal := V m c main_v21

/-- The column of edge weights: the network on every feature row the region finds. -/
def column (c : Dev nD) : S1200000x1.Idx → EReal :=
  ewArray (feat m c) (w1 m c) (b1 m c) (w2 m c) (b2 m c) (w3 m c) (b3 m c)

/-- A window staged whole: its block at any point is its array. -/
theorem whole1 (c : Dev nD) (t : Fin cfg0.N) : (iblk m c 1 t : Vec Ideal S128x32 .f32) = w1 m c := by
  obtain ⟨-, -, e0, e1, -⟩ := block_indices t
  funext z
  unfold iblk
  rw [View.read_apply]
  show V m c main_arg3 _ = V m c main_arg3 z
  congr 1
  funext a
  apply Fin.ext
  match a with
  | ⟨0, _⟩ => show win0_1.index t (0 : Fin 2) * 128 + 1 * (z 0).val = (z 0).val; omega
  | ⟨1, _⟩ => show win0_1.index t (1 : Fin 2) * 32 + 1 * (z 1).val = (z 1).val; omega

theorem whole2 (c : Dev nD) (t : Fin cfg0.N) : (iblk m c 2 t : Vec Ideal S1x32 .f32) = b1 m c := by
  obtain ⟨-, -, -, -, e0, e1, -⟩ := block_indices t
  funext z
  unfold iblk
  rw [View.read_apply]
  show V m c main_v19 _ = V m c main_v19 z
  congr 1
  funext a
  apply Fin.ext
  match a with
  | ⟨0, _⟩ => show win0_2.index t (0 : Fin 2) * 1 + 1 * (z 0).val = (z 0).val; omega
  | ⟨1, _⟩ => show win0_2.index t (1 : Fin 2) * 32 + 1 * (z 1).val = (z 1).val; omega

theorem whole3 (c : Dev nD) (t : Fin cfg0.N) : (iblk m c 3 t : Vec Ideal S32x32 .f32) = w2 m c := by
  obtain ⟨-, -, -, -, -, -, e0, e1, -⟩ := block_indices t
  funext z
  unfold iblk
  rw [View.read_apply]
  show V m c main_arg5 _ = V m c main_arg5 z
  congr 1
  funext a
  apply Fin.ext
  match a with
  | ⟨0, _⟩ => show win0_3.index t (0 : Fin 2) * 32 + 1 * (z 0).val = (z 0).val; omega
  | ⟨1, _⟩ => show win0_3.index t (1 : Fin 2) * 32 + 1 * (z 1).val = (z 1).val; omega

theorem whole4 (c : Dev nD) (t : Fin cfg0.N) : (iblk m c 4 t : Vec Ideal S1x32 .f32) = b2 m c := by
  obtain ⟨-, -, -, -, -, -, -, -, e0, e1, -⟩ := block_indices t
  funext z
  unfold iblk
  rw [View.read_apply]
  show V m c main_v20 _ = V m c main_v20 z
  congr 1
  funext a
  apply Fin.ext
  match a with
  | ⟨0, _⟩ => show win0_4.index t (0 : Fin 2) * 1 + 1 * (z 0).val = (z 0).val; omega
  | ⟨1, _⟩ => show win0_4.index t (1 : Fin 2) * 32 + 1 * (z 1).val = (z 1).val; omega

theorem whole5 (c : Dev nD) (t : Fin cfg0.N) : (iblk m c 5 t : Vec Ideal S32x1 .f32) = w3 m c := by
  obtain ⟨-, -, -, -, -, -, -, -, -, -, e0, e1, -⟩ := block_indices t
  funext z
  unfold iblk
  rw [View.read_apply]
  show V m c main_arg7 _ = V m c main_arg7 z
  congr 1
  funext a
  apply Fin.ext
  match a with
  | ⟨0, _⟩ => show win0_5.index t (0 : Fin 2) * 32 + 1 * (z 0).val = (z 0).val; omega
  | ⟨1, _⟩ => show win0_5.index t (1 : Fin 2) * 1 + 1 * (z 1).val = (z 1).val; omega

theorem whole6 (c : Dev nD) (t : Fin cfg0.N) : (iblk m c 6 t : Vec Ideal S1x1 .f32) = b3 m c := by
  obtain ⟨-, -, -, -, -, -, -, -, -, -, -, -, e0, e1, -⟩ := block_indices t
  funext z
  unfold iblk
  rw [View.read_apply]
  show V m c main_v21 _ = V m c main_v21 z
  congr 1
  funext a
  apply Fin.ext
  match a with
  | ⟨0, _⟩ => show win0_6.index t (0 : Fin 2) * 1 + 1 * (z 0).val = (z 0).val; omega
  | ⟨1, _⟩ => show win0_6.index t (1 : Fin 2) * 1 + 1 * (z 1).val = (z 1).val; omega

/-- Row `p` of the feature block staged at point `t` is row `6000 t + p` of the feature array, which is the row the
    result's block has at `p`. -/
theorem feat_row (c : Dev nD) (t : Fin cfg0.N) (y : S6000x1.Idx) (k : Fin 128) :
    (iblk m c 0 t : Vec Ideal S6000x128 .f32) (ix2 (y 0) k)
      = feat m c (ix2 ((((cfg0.win 7).blk t).view.emb y : S1200000x1.Idx) 0) k) := by
  obtain ⟨e00, e01, -, -, -, -, -, -, -, -, -, -, -, -, e70, e71⟩ := block_indices t
  unfold iblk
  rw [View.read_apply]
  show V m c main_v18 _ = V m c main_v18 _
  congr 1
  funext a
  apply Fin.ext
  match a with
  | ⟨0, _⟩ =>
      show win0_0.index t (0 : Fin 2) * 6000 + 1 * (y 0).val = win0_7.index t (0 : Fin 2) * 6000 + 1 * (y 0).val
      omega
  | ⟨1, _⟩ => show win0_0.index t (1 : Fin 2) * 128 + 1 * k.val = k.val; omega

/-- What point `t` writes back is its rows of the column of edge weights. -/
theorem flushed_eq (c : Dev nD) (t : Fin cfg0.N) :
    (dats m 0 c).flushed 7 t = ((cfg0.win 7).blk t).view.read (Elt Ideal) (column m c) := by
  show (cfg0.win 7).cut (grid0.coords t) ((dats m 0 c).after 7 t) = _
  rw [after0_7]
  unfold out0_7
  rw [View.canon_unit_zero zero_offsets]
  simp only [View.ld_unit_zero (S := S6000x128) zero_offsets, View.ld_unit_zero (S := S128x32) zero_offsets,
    View.ld_unit_zero (S := S1x32) zero_offsets, View.ld_unit_zero (S := S32x32) zero_offsets,
    View.ld_unit_zero (S := S32x1) zero_offsets, View.ld_unit_zero (S := S1x1) zero_offsets]
  funext y
  rw [View.read_apply]
  exact stored_eq_column (iblk m c 0 t) (iblk m c 1 t) (iblk m c 2 t) (iblk m c 3 t) (iblk m c 4 t) (iblk m c 5 t)
    (iblk m c 6 t) (feat m c) (w1 m c) (b1 m c) (w2 m c) (b2 m c) (w3 m c) (b3 m c) y (((cfg0.win 7).blk t).view.emb y)
    (feat_row m c t y) (whole1 m c t) (whole2 m c t) (whole3 m c t) (whole4 m c t) (whole5 m c t) (whole6 m c t)

/-- Every row of the result lies in the range some point writes back. -/
theorem rows_covered (i : S1200000x1.Idx) :
    ∃ t : Fin cfg0.N, (cfg0.win 7).flush t = true ∧ i ∈ ((cfg0.win 7).blk t).view.set := by
  have hi0 : (i 0).val < 1200000 := (i 0).isLt
  have hi1 : (i 1).val < 1 := (i 1).isLt
  have hN : cfg0.N = 200 := N_0
  have hlt : (i 0).val / 6000 < cfg0.N := by rw [hN]; omega
  obtain ⟨t, ht⟩ : ∃ t : Fin cfg0.N, t.val = (i 0).val / 6000 := ⟨⟨(i 0).val / 6000, hlt⟩, rfl⟩
  obtain ⟨-, -, -, -, -, -, -, -, -, -, -, -, -, -, e70, e71⟩ := block_indices t
  refine ⟨t, flush0_7 t, ?_⟩
  show i ∈ ((View.whole main_v22).slice (win0_7.rect t)).set
  rw [View.set_slice_whole, Rect.mem_set_unit]
  intro a
  match a with
  | ⟨0, _⟩ =>
      show win0_7.index t (0 : Fin 2) * 6000 ≤ (i 0).val ∧ (i 0).val < win0_7.index t (0 : Fin 2) * 6000 + 6000
      omega
  | ⟨1, _⟩ =>
      show win0_7.index t (1 : Fin 2) * 1 ≤ (i 1).val ∧ (i 1).val < win0_7.index t (1 : Fin 2) * 1 + 1
      omega

/-- The result array after the region: the column of edge weights. -/
theorem final (c : Dev nD) : (dats m 0 c).arrAt 7 cfg0.N = column m c :=
  (dats m 0 c).arrAt_eq_of_cover 7 (column m c) (fun t _ => flushed_eq m c t) rows_covered

end Cert.KernelIdeal.EdgeColumn

end
-- ==== Proof.EdgeInputs.lean ====
import proofs.«152135_j51591147160149_1_alg».proof.Proof.Gen.KernelIdeal.Frame
import Idealize.ShloMosaic.Lib.StableHlo.Run
import Idealize.ShloMosaic.PureOps.Ideal

/-!
  What the kernel's host lines compute before the region, as functions of the arguments.

  The edge list is a [2, E] integer array: its row 0 holds each edge's target node, its row 1 the edge's source node.
  A negative node id is wrapped once by the node count (the indexing convention), and the feature rows of the two
  endpoints are gathered and laid side by side: that [E, 128] array is what the region reads. The three bias vectors
  are reshaped to rows.
-/

noncomputable section

namespace Cert.KernelIdeal.EdgeInputs

open Cert.KernelIdeal Cert.KernelIdeal.Gen Idealize.ShloMosaic Idealize.ShloMosaic.TcCoe Idealize.SL.Sem
open Idealize.ShloMosaic.StableHlo

/-- Row 0 of the edge list: each edge's target node. -/
def rowIds (ei : IVec S2x1200000 32) : IVec S1200000 32 :=
  shapeCast S1200000 (extractStridedSlice S1x1200000 ![0, 0] ei slices_S2x1200000_S1x1200000_0_0) shapeCasts_S1x1200000_S1200000

/-- Row 1 of the edge list: each edge's source node. -/
def colIds (ei : IVec S2x1200000 32) : IVec S1200000 32 :=
  shapeCast S1200000 (extractStridedSlice S1x1200000 ![1, 0] ei slices_S2x1200000_S1x1200000_1_0) shapeCasts_S1x1200000_S1200000

/-- A negative id counts from the end: the node count is added to it once. -/
def wrapIds (ids : IVec S1200000 32) : IVec S1200000 32 :=
  select (cmpi .slt ids (broadcastInDim S1200000 ![] bcast_S_S1200000 (constantI S_ 32 0#32)))
    (addi ids (broadcastInDim S1200000 ![] bcast_S_S1200000 (constantI S_ 32 50000#32))) ids

/-- The feature rows of the nodes `ids` names, one per edge. -/
def nodeRows (x : FVec Ideal S50000x64 .f32) (ids : IVec S1200000 32) : FVec Ideal S1200000x64 .f32 :=
  Host.gather gather_S50000x64_S1200000x1_S1200000x64_1_0_n_n_0_1_164 x
    (broadcastInDim S1200000x1 ![0] bcast_S1200000_S1200000x1_0 (wrapIds ids))

/-- Each edge's feature row: its target node's features, then its source node's. -/
def edgeFeatures (x : FVec Ideal S50000x64 .f32) (ei : IVec S2x1200000 32) : FVec Ideal S1200000x128 .f32 :=
  concatenate S1200000x128 1 [⟨S1200000x64, nodeRows x (rowIds ei)⟩, ⟨S1200000x64, nodeRows x (colIds ei)⟩]
    concatenates_S1200000x64_S1200000x64_S1200000x128_d1

variable (m : (ℓ : Loc nD τ sig) → Buf (Elt Ideal) ℓ)

set_option maxRecDepth 8192 in
set_option maxHeartbeats 2000000 in
/-- The region finds the target ids in `main_v1`. -/
theorem rows_eq (c : Dev nD) : V m c main_v1 = rowIds (m ((c : Thread nD τ).loc main_arg1)) := by
  show StableHlo.after hostOps0 (fun b => m (c, b)) (Proc.devRef .tc main_v1) = _
  after_results_simp
  rfl

set_option maxRecDepth 8192 in
set_option maxHeartbeats 2000000 in
/-- The region finds the source ids in `main_v3`. -/
theorem cols_eq (c : Dev nD) : V m c main_v3 = colIds (m ((c : Thread nD τ).loc main_arg1)) := by
  show StableHlo.after hostOps0 (fun b => m (c, b)) (Proc.devRef .tc main_v3) = _
  after_results_simp
  rfl

set_option maxRecDepth 8192 in
set_option maxHeartbeats 2000000 in
/-- The first bias, as a row. -/
theorem bias1_eq (c : Dev nD) :
    V m c main_v19 = shapeCast S1x32 (m ((c : Thread nD τ).loc main_arg4)) shapeCasts_S32_S1x32 := by
  show StableHlo.after hostOps0 (fun b => m (c, b)) (Proc.devRef .tc main_v19) = _
  after_results_simp
  rfl

set_option maxRecDepth 8192 in
set_option maxHeartbeats 2000000 in
/-- The second bias, as a row. -/
theorem bias2_eq (c : Dev nD) :
    V m c main_v20 = shapeCast S1x32 (m ((c : Thread nD τ).loc main_arg6)) shapeCasts_S32_S1x32 := by
  show StableHlo.after hostOps0 (fun b => m (c, b)) (Proc.devRef .tc main_v20) = _
  after_results_simp
  rfl

set_option maxRecDepth 8192 in
set_option maxHeartbeats 2000000 in
/-- The third bias, as a row of one entry. -/
theorem bias3_eq (c : Dev nD) :
    V m c main_v21 = shapeCast S1x1 (m ((c : Thread nD τ).loc main_arg8)) shapeCasts_S1_S1x1 := by
  show StableHlo.after hostOps0 (fun b => m (c, b)) (Proc.devRef .tc main_v21) = _
  after_results_simp
  rfl

set_option maxRecDepth 8192 in
set_option maxHeartbeats 4000000 in
/-- The region finds the edges' feature rows in `main_v18`. -/
theorem features_eq (c : Dev nD) :
    V m c main_v18 = edgeFeatures (m ((c : Thread nD τ).loc main_arg0)) (m ((c : Thread nD τ).loc main_arg1)) := by
  show StableHlo.after hostOps0 (fun b => m (c, b)) (Proc.devRef .tc main_v18) = _
  after_results
  rfl

end Cert.KernelIdeal.EdgeInputs

end
-- ==== Proof.EdgeRun.lean ====
import proofs.«152135_j51591147160149_1_alg».proof.Proof.EdgeColumn
import proofs.«152135_j51591147160149_1_alg».proof.Proof.EdgeInputs

/-!
  The kernel program's result as one function of its arguments, and its run.

  After the region the host lines turn the column of edge weights into a vector, multiply each edge's weight by the
  scalar of the edge's source node, and add the products into a zero vector at each edge's target node. With the column
  read off the region and the host lines before it read as functions of the arguments, the result is one term of the
  nine arguments.
-/

noncomputable section

namespace Cert.KernelIdeal.EdgeRun

open Cert.KernelIdeal Cert.KernelIdeal.Gen Idealize.ShloMosaic Idealize.ShloMosaic.TcCoe Idealize.SL.Sem
open Idealize.ShloMosaic.StableHlo Cert.EdgeMlp Cert.KernelIdeal.EdgeInputs Cert.KernelIdeal.EdgeColumn
open Idealize.ShloMosaic.Pipeline (Dat)

/-- For every node, the sum over the edges that target it of the edge's weight times its source node's scalar. -/
def nodeSums (ew : FVec Ideal S1200000x1 .f32) (rows cols : IVec S1200000 32) (u : FVec Ideal S50000 .f32) :
    FVec Ideal S50000 .f32 :=
  Host.scatterAdd scatter_S50000_S1200000x1_S1200000_n_0_0_1
    (broadcastInDim S50000 ![] bcast_S_S50000 (constant S_ .f32 0x00000000#32))
    (broadcastInDim S1200000x1 ![0] bcast_S1200000_S1200000x1_0 rows)
    (mulf (shapeCast S1200000 ew shapeCasts_S1200000x1_S1200000)
      (Host.gather gather_S50000_S1200000x1_S1200000_n_0_n_n_0_1_1 u
        (broadcastInDim S1200000x1 ![0] bcast_S1200000_S1200000x1_0 (wrapIds cols))))

/-- The program's result, of its nine arguments. -/
def result (x0 : FVec Ideal S50000x64 .f32) (x1 : IVec S2x1200000 32) (x2 : FVec Ideal S50000 .f32)
    (x3 : FVec Ideal S128x32 .f32) (x4 : FVec Ideal S32 .f32) (x5 : FVec Ideal S32x32 .f32) (x6 : FVec Ideal S32 .f32)
    (x7 : FVec Ideal S32x1 .f32) (x8 : FVec Ideal S1 .f32) : FVec Ideal S50000 .f32 :=
  nodeSums
    (ewArray (edgeFeatures x0 x1) x3 (shapeCast S1x32 x4 shapeCasts_S32_S1x32) x5 (shapeCast S1x32 x6 shapeCasts_S32_S1x32) x7
      (shapeCast S1x1 x8 shapeCasts_S1_S1x1))
    (rowIds x1) (colIds x1) x2

variable (m : (ℓ : Loc nD τ sig) → Buf (Elt Ideal) ℓ) (ρ : Dev nD → PrngReg)

/-- The column of edge weights in terms of the arguments. -/
theorem column_eq (c : Dev nD) :
    column m c = ewArray (edgeFeatures (m ((c : Thread nD τ).loc main_arg0)) (m ((c : Thread nD τ).loc main_arg1))) (m ((c : Thread nD τ).loc main_arg3))
      (shapeCast S1x32 (m ((c : Thread nD τ).loc main_arg4)) shapeCasts_S32_S1x32) (m ((c : Thread nD τ).loc main_arg5))
      (shapeCast S1x32 (m ((c : Thread nD τ).loc main_arg6)) shapeCasts_S32_S1x32) (m ((c : Thread nD τ).loc main_arg7))
      (shapeCast S1x1 (m ((c : Thread nD τ).loc main_arg8)) shapeCasts_S1_S1x1) := by
  have e0 := features_eq m c
  have e1 := V_main_arg3 m c
  have e2 := bias1_eq m c
  have e3 := V_main_arg5 m c
  have e4 := bias2_eq m c
  have e5 := V_main_arg7 m c
  have e6 := bias3_eq m c
  unfold column feat w1 b1 w2 b2 w3 b3
  rw [e0, e1, e2, e3, e4, e5, e6]

set_option maxRecDepth 8192 in
set_option maxHeartbeats 2000000 in
/-- What the host lines after the region leave in the result buffer. -/
theorem tail_eq (c : Dev nD) :
    Pipeline.afterTail₀ cfgs (dats m) 0 (V0 m) [hostOps1] c main_v34
      = nodeSums (column m c) (V m c main_v1) (V m c main_v3) (V m c main_arg2) := by
  have h22 : Pipeline.withArrays (cfgs 0).spec c (V0 m c) (fun w => (dats m 0 c).arrAt w (cfgs 0).N) (Proc.devRef .tc main_v22)
      = column m c :=
    (Pipeline.withArrays_arr (cfgs 0).spec launch0.win.arr_inj c (V0 m c) (fun w => (dats m 0 c).arrAt w (cfgs 0).N) 7).trans
      (final m c)
  have h1 : Pipeline.withArrays (cfgs 0).spec c (V0 m c) (fun w => (dats m 0 c).arrAt w (cfgs 0).N) (Proc.devRef .tc main_v1)
      = V m c main_v1 :=
    Pipeline.withArrays_of_ne _ c (V0 m c) _ main_v1 (by exact (by decide : ∀ w, Pipeline.arrRef spec0 w ≠ main_v1))
  have h3 : Pipeline.withArrays (cfgs 0).spec c (V0 m c) (fun w => (dats m 0 c).arrAt w (cfgs 0).N) (Proc.devRef .tc main_v3)
      = V m c main_v3 :=
    Pipeline.withArrays_of_ne _ c (V0 m c) _ main_v3 (by exact (by decide : ∀ w, Pipeline.arrRef spec0 w ≠ main_v3))
  have h2 : Pipeline.withArrays (cfgs 0).spec c (V0 m c) (fun w => (dats m 0 c).arrAt w (cfgs 0).N) (Proc.devRef .tc main_arg2)
      = V m c main_arg2 :=
    Pipeline.withArrays_of_ne _ c (V0 m c) _ main_arg2 (by exact (by decide : ∀ w, Pipeline.arrRef spec0 w ≠ main_arg2))
  unfold Pipeline.afterTail₀
  show StableHlo.after hostOps1 _ (Proc.devRef .tc main_v34) = _
  after_results_simp
  rw [h22, h1, h3, h2]
  rfl

/-- The result buffer after the run, of the arguments. -/
theorem value_eq (c : Dev nD) :
    Pipeline.afterTail₀ cfgs (dats m) 0 (V0 m) [hostOps1] c main_v34
      = result (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) := by
  rw [tail_eq, column_eq, rows_eq, cols_eq, V_main_arg2]
  rfl

/-- The argument arrays end as launched: the arrays the region stages are inputs, which it leaves at their entry
    contents, and no host line writes an argument. -/
theorem kept (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 1).trans (((dats m 0 c).arrAt_in 1 rfl _).trans ((A_eq m c 1).trans (V_main_arg3 m c))),
    ((h c).2 main_arg4 (Pipeline.mem_restRefs_of main_arg4 (by decide) (by decide))).trans (W_main_arg4 m (dats m) c),
    ((h c).1 3).trans (((dats m 0 c).arrAt_in 3 rfl _).trans ((A_eq m c 3).trans (V_main_arg5 m c))),
    ((h c).2 main_arg6 (Pipeline.mem_restRefs_of main_arg6 (by decide) (by decide))).trans (W_main_arg6 m (dats m) c),
    ((h c).1 5).trans (((dats m 0 c).arrAt_in 5 rfl _).trans ((A_eq m c 5).trans (V_main_arg7 m c))),
    ((h c).2 main_arg8 (Pipeline.mem_restRefs_of main_arg8 (by decide) (by decide))).trans (W_main_arg8 m (dats m) c)⟩

/-- Every weakly fair execution of the kernel program ends with the result buffer at `result` of the arguments and
    the arguments as launched. -/
theorem run : θ_run defs (onTc (τ := τ) (main (F := Ideal))) ⟨m, fun _ => 0, ρ⟩ fun r => ∀ c : Dev nD,
      r.2.mem ((c : Thread nD τ).loc main_v34)
        = result (m ((c : Thread nD τ).loc main_arg0)) (m ((c : Thread nD τ).loc main_arg1)) (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c =>
      ⟨((h c).2 main_v34 (Pipeline.mem_restRefs_of main_v34 (by decide) (by decide))).trans (value_eq m c), kept m r h c⟩)
    (run_main m ρ)

end Cert.KernelIdeal.EdgeRun

end
-- ==== Proof.EdgeList.lean ====
import proofs.«152135_j51591147160149_1_alg».proof.Proof.Gen.ReferenceIdeal.Read
import proofs.«152135_j51591147160149_1_alg».proof.Proof.EdgeMlp

/-!
  What the reference computes for each edge.

  The reference runs the three dense layers on the whole list of 1,200,000 feature rows at once: a general dot product
  with each weight matrix, the bias vector made a row and broadcast down the list, and, after the first two, the maximum
  against a broadcast zero. Read at edge `e` this is the network's weight for feature row `e`.
-/

noncomputable section

namespace Cert.ReferenceIdeal.EdgeList

open Cert.ReferenceIdeal Cert.ReferenceIdeal.Gen Cert.ReferenceIdeal.Read Idealize.ShloMosaic
open Idealize.ShloMosaic.ValueIdx Cert.EdgeMlp

/-- The rectifier as the reference spells it: the maximum against the zero word broadcast from a scalar. -/
theorem relu_apply {s : Shape} (v : FVec Ideal s .f32) (h : S_.BroadcastsInDim s (![] : Fin 0 → Fin s.rank)) (i : s.Idx) :
    maximumf v (broadcastInDim s ![] h (constant (F := Ideal) S_ .f32 0x00000000#32)) i = relu (v i) := rfl

/-- The reference's pre-reshape result at edge `e` is the network's weight for row `e` of its feature array. -/
theorem weight_apply (x0 : (⟨S50000x64, .f32⟩ : BufTy).Contents (Elt Ideal)) (x1 : (⟨S2x1200000, .i32⟩ : BufTy).Contents (Elt Ideal))
    (x3 : (⟨S128x32, .f32⟩ : BufTy).Contents (Elt Ideal)) (x4 : (⟨S32, .f32⟩ : BufTy).Contents (Elt Ideal))
    (x5 : (⟨S32x32, .f32⟩ : BufTy).Contents (Elt Ideal)) (x6 : (⟨S32, .f32⟩ : BufTy).Contents (Elt Ideal))
    (x7 : (⟨S32x1, .f32⟩ : BufTy).Contents (Elt Ideal)) (x8 : (⟨S1, .f32⟩ : BufTy).Contents (Elt Ideal))
    (e : Fin 1200000) (q : Fin 1) :
    val_main_v32 (F := Ideal) x0 x1 x3 x4 x5 x6 x7 x8 (ix2 e q)
      = edgeWeight (fun k => val_main_v18 (F := Ideal) x0 x1 (ix2 e k)) x3 (fun j => x4 (ix1 j)) x5 (fun j => x6 (ix1 j)) x7
          (fun j => x8 (ix1 j)) := by
  obtain rfl : q = 0 := Subsingleton.elim _ _
  unfold edgeWeight
  -- the third layer, on the rectified second
  unfold val_main_v32 val_main_v29 val_main_v31 val_main_v30
  refine (dense_of_dotGeneral dot_S1200000x32_S32x1_S1200000x1_1_0_0_1_n_n rfl rfl rfl rfl rfl rfl _ _ _ _ _ e 0).trans ?_
  refine congrArg (fun a => dense a x7 (fun j => x8 (ix1 j)) 0) (funext fun j => ?_)
  unfold val_main_v28 val_main_call1_v0 val_main_call1_cst
  refine (relu_apply _ _ _).trans (congrArg relu ?_)
  -- the second layer, on the rectified first
  unfold val_main_v27 val_main_v24 val_main_v26 val_main_v25
  refine (dense_of_dotGeneral dot_S1200000x32_S32x32_S1200000x32_1_0_0_1_n_n rfl rfl rfl rfl rfl rfl _ _ _ _ _ e j).trans ?_
  refine congrArg (fun a => dense a x5 (fun j => x6 (ix1 j)) j) (funext fun i => ?_)
  unfold val_main_v23 val_main_call0_v0 val_main_call0_cst
  refine (relu_apply _ _ _).trans (congrArg relu ?_)
  -- the first layer, on the feature row
  unfold val_main_v22 val_main_v19 val_main_v21 val_main_v20
  exact dense_of_dotGeneral dot_S1200000x128_S128x32_S1200000x32_1_0_0_1_n_n rfl rfl rfl rfl rfl rfl _ _ _ _ _ e i

end Cert.ReferenceIdeal.EdgeList

end
-- ==== Proof.Bridge.lean ====
import proofs.«152135_j51591147160149_1_alg».proof.Proof.EdgeRun
import proofs.«152135_j51591147160149_1_alg».proof.Proof.EdgeList

/-!
  The two programs' results are one function of the arguments.

  The reference's result is the same scatter of weight-times-scalar products as the kernel program's, over the same
  edge list; the two differ only in how the edge weights are produced, and both productions are the network applied to
  the same feature rows. The reference adds each bias as a vector broadcast down the list, the kernel as a row staged
  once: entry `(0, j)` of a vector reshaped to a row is entry `j` of the vector.
-/

noncomputable section

namespace Cert.Proof.Bridge

open Idealize.ShloMosaic Idealize.ShloMosaic.ValueIdx Cert.EdgeMlp

/-- A vector reshaped to a row: entry `(0, j)` is entry `j`. -/
theorem row_of_vec {N : Nat} (b : (⟨1, ![N]⟩ : Shape).Idx → EReal) (h : (⟨1, ![N]⟩ : Shape).ShapeCasts ⟨2, ![1, N]⟩)
    (j : Fin N) : shapeCast ⟨2, ![1, N]⟩ b h (ix2 0 j) = b (ix1 j) :=
  shapeCast_apply b h (ix2 0 j) (ix1 j)
    (by rw [Shape.rowMajor_val_two, Shape.rowMajor_val_one]; show j.val = 0 * N + j.val; omega)

/-- The reference's edge weights, as the network on every row of its feature array with the biases as rows. -/
theorem ref_weights (x0 : (⟨Cert.ReferenceIdeal.S50000x64, .f32⟩ : BufTy).Contents (Elt Ideal))
    (x1 : (⟨Cert.ReferenceIdeal.S2x1200000, .i32⟩ : BufTy).Contents (Elt Ideal))
    (x3 : (⟨Cert.ReferenceIdeal.S128x32, .f32⟩ : BufTy).Contents (Elt Ideal)) (x4 : (⟨Cert.ReferenceIdeal.S32, .f32⟩ : BufTy).Contents (Elt Ideal))
    (x5 : (⟨Cert.ReferenceIdeal.S32x32, .f32⟩ : BufTy).Contents (Elt Ideal)) (x6 : (⟨Cert.ReferenceIdeal.S32, .f32⟩ : BufTy).Contents (Elt Ideal))
    (x7 : (⟨Cert.ReferenceIdeal.S32x1, .f32⟩ : BufTy).Contents (Elt Ideal)) (x8 : (⟨Cert.ReferenceIdeal.S1, .f32⟩ : BufTy).Contents (Elt Ideal))
    (h32 : (⟨1, ![32]⟩ : Shape).ShapeCasts ⟨2, ![1, 32]⟩) (h1 : (⟨1, ![1]⟩ : Shape).ShapeCasts ⟨2, ![1, 1]⟩) :
    Cert.ReferenceIdeal.Read.val_main_v32 (F := Ideal) x0 x1 x3 x4 x5 x6 x7 x8
      = ewArray (Cert.ReferenceIdeal.Read.val_main_v18 (F := Ideal) x0 x1) x3 (shapeCast ⟨2, ![1, 32]⟩ x4 h32) x5
          (shapeCast ⟨2, ![1, 32]⟩ x6 h32) x7 (shapeCast ⟨2, ![1, 1]⟩ x8 h1) := by
  funext i
  obtain ⟨e, q, rfl⟩ : ∃ (e : Fin 1200000) (q : Fin 1), i = ix2 e q := ⟨i 0, i 1, eq_ix2 i⟩
  rw [Cert.ReferenceIdeal.EdgeList.weight_apply]
  unfold ewArray
  have r4 : (fun j : Fin 32 => x4 (ix1 j)) = fun j => shapeCast ⟨2, ![1, 32]⟩ x4 h32 (ix2 0 j) :=
    funext fun j => (row_of_vec x4 h32 j).symm
  have r6 : (fun j : Fin 32 => x6 (ix1 j)) = fun j => shapeCast ⟨2, ![1, 32]⟩ x6 h32 (ix2 0 j) :=
    funext fun j => (row_of_vec x6 h32 j).symm
  have r8 : (fun j : Fin 1 => x8 (ix1 j)) = fun j => shapeCast ⟨2, ![1, 1]⟩ x8 h1 (ix2 0 j) :=
    funext fun j => (row_of_vec x8 h1 j).symm
  rw [r4, r6, r8]

/-- The reference's result term is the kernel program's result function of the same arguments. -/
theorem ref_result (x0 : (⟨Cert.ReferenceIdeal.S50000x64, .f32⟩ : BufTy).Contents (Elt Ideal))
    (x1 : (⟨Cert.ReferenceIdeal.S2x1200000, .i32⟩ : BufTy).Contents (Elt Ideal)) (x2 : (⟨Cert.ReferenceIdeal.S50000, .f32⟩ : BufTy).Contents (Elt Ideal))
    (x3 : (⟨Cert.ReferenceIdeal.S128x32, .f32⟩ : BufTy).Contents (Elt Ideal)) (x4 : (⟨Cert.ReferenceIdeal.S32, .f32⟩ : BufTy).Contents (Elt Ideal))
    (x5 : (⟨Cert.ReferenceIdeal.S32x32, .f32⟩ : BufTy).Contents (Elt Ideal)) (x6 : (⟨Cert.ReferenceIdeal.S32, .f32⟩ : BufTy).Contents (Elt Ideal))
    (x7 : (⟨Cert.ReferenceIdeal.S32x1, .f32⟩ : BufTy).Contents (Elt Ideal)) (x8 : (⟨Cert.ReferenceIdeal.S1, .f32⟩ : BufTy).Contents (Elt Ideal)) :
    Cert.ReferenceIdeal.Read.val_main_v44 (F := Ideal) x0 x1 x2 x3 x4 x5 x6 x7 x8
      = Cert.KernelIdeal.EdgeRun.result x0 x1 x2 x3 x4 x5 x6 x7 x8 := by
  unfold Cert.ReferenceIdeal.Read.val_main_v44 Cert.ReferenceIdeal.Read.val_main_v41 Cert.ReferenceIdeal.Read.val_main_v33
  rw [ref_weights x0 x1 x3 x4 x5 x6 x7 x8 Cert.KernelIdeal.Gen.shapeCasts_S32_S1x32 Cert.KernelIdeal.Gen.shapeCasts_S1_S1x1]
  rfl

end Cert.Proof.Bridge

end
-- ==== Proof.lean ====
/-
  The certificate of an edge network in a graph layer, a fused kernel against its plain reference, on the extended reals.

  Both programs gather, for each of 1,200,000 edges, the feature rows of the edge's two endpoint nodes, run a three-layer
  network on the joined row to get one weight per edge, multiply it by the scalar of the edge's source node, and add the
  products up at the edge's target node. The kernel program runs the network in a grid of 200 blocks of 6000 edges, its
  products on the matrix unit with operands narrowed to a shorter float format; the reference runs it on the whole edge
  list with general dot products. On the extended reals the narrowing is the identity and either product is the plain
  sum over the contracted axis, so the two edge-weight columns are equal entry by entry, and everything before and
  after the network is the same sequence of operations in both programs.

  The modules: Proof/EdgeMlp.lean (the network as sums, and a layer in either program's spelling), Proof/KernelBlock.lean
  (one block's stored column), Proof/EdgeColumn.lean (the blocks tile the column), Proof/EdgeInputs.lean (what the region
  finds, of the arguments), Proof/EdgeRun.lean (the kernel program's run and result), Proof/EdgeList.lean (the
  reference's weight per edge), Proof/Bridge.lean (the two result terms are one function), over Proof/LibPlainDot.lean (a plain
  matrix product read at an entry). The idealized kernel is the kernel's own text read on the extended reals, so the
  idealization claim has no conjunct to prove.
-/
import proofs.«152135_j51591147160149_1_alg».proof.Defs
import proofs.«152135_j51591147160149_1_alg».proof.Proof.Gen.Kernel
import proofs.«152135_j51591147160149_1_alg».proof.Proof.Gen.Kernel.Skeleton
import proofs.«152135_j51591147160149_1_alg».proof.Proof.Gen.Kernel.Launch
import proofs.«152135_j51591147160149_1_alg».proof.Proof.Gen.Kernel.Points
import proofs.«152135_j51591147160149_1_alg».proof.Proof.Gen.Kernel.Frame
import proofs.«152135_j51591147160149_1_alg».proof.Proof.Gen.KernelIdeal
import proofs.«152135_j51591147160149_1_alg».proof.Proof.Gen.KernelIdeal.Skeleton
import proofs.«152135_j51591147160149_1_alg».proof.Proof.Gen.KernelIdeal.Launch
import proofs.«152135_j51591147160149_1_alg».proof.Proof.Gen.KernelIdeal.Points
import proofs.«152135_j51591147160149_1_alg».proof.Proof.Gen.KernelIdeal.Frame
import proofs.«152135_j51591147160149_1_alg».proof.Proof.Gen.ReferenceIdeal
import proofs.«152135_j51591147160149_1_alg».proof.Proof.Gen.Pre_finite_inputs
import proofs.«152135_j51591147160149_1_alg».proof.Proof.Gen.ReferenceIdeal.Run
import proofs.«152135_j51591147160149_1_alg».proof.Proof.Gen.ReferenceIdeal.Read
import proofs.«152135_j51591147160149_1_alg».proof.Proof.EdgeRun
import proofs.«152135_j51591147160149_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel program's result
    function of the arguments, which the reference's result term equals. -/
theorem algebraic : Cert.algebraic_KernelIdeal_ReferenceIdeal := by
  intro m ρ m' ρ' _ hagree
  refine ⟨fun c => Cert.KernelIdeal.EdgeRun.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), Cert.KernelIdeal.EdgeRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v44_eq, a0, a1, a2, a3, a4, a5, a6, a7, a8]
  exact Cert.Proof.Bridge.ref_result _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
